-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x32x128 : Shape := ⟨4, ![8, 4096, 32, 128]⟩
abbrev S8x1x32x128 : Shape := ⟨4, ![8, 1, 32, 128]⟩
abbrev S_ : Shape := ⟨0, ![]⟩

class Facts : Prop where
  bcast_S_S8x4096x32x128 : S_.BroadcastsInDim S8x4096x32x128 (![] : Fin 0 → Fin S8x4096x32x128.rank)
  reducesTo_S8x4096x32x128_S_d0_1_2_3 : S8x4096x32x128.ReducesTo [0, 1, 2, 3] S_
  h_S_ : 0 < S_.numel
  bcast_S_S8x1x32x128 : S_.BroadcastsInDim S8x1x32x128 (![] : Fin 0 → Fin S8x1x32x128.rank)
  reducesTo_S8x1x32x128_S_d0_1_2_3 : S8x1x32x128.ReducesTo [0, 1, 2, 3] S_

variable [Facts]

def fn_part1 {F : FTy → Type} [FloatOps F] (main_v13 : IVec S_ 1) (main_v16 : IVec S8x1x32x128 1) : IVec S_ 1 :=
  let main_c_5 : IVec S_ 1 := constantI S_ 1 1#1
  let main_v17 : IVec S_ 1 := (fun x v => Host.reduce IntOp.andi x v reducesTo_S8x1x32x128_S_d0_1_2_3 h_S_) main_v16 main_c_5
  let main_v18 : IVec S_ 1 := andi main_v13 main_v17
  main_v18

def fn {F : FTy → Type} [FloatOps F] (main_arg0 : FVec F S8x4096x32x128 .f32) (main_arg1 : FVec F S8x4096x32x128 .f32) (main_arg2 : FVec F S8x1x32x128 .f32) (main_arg3 : FVec F S8x1x32x128 .f32) : IVec S_ 1 :=
  let main_v0 : FVec F S8x4096x32x128 .f32 := Host.absf main_arg0
  let main_cst : FVec F S_ .f32 := constant S_ .f32 0x7F800000#32
  let main_v1 : FVec F S8x4096x32x128 .f32 := broadcastInDim S8x4096x32x128 ![] bcast_S_S8x4096x32x128 main_cst
  let main_v2 : IVec S8x4096x32x128 1 := cmpf .olt main_v0 main_v1
  let main_c : IVec S_ 1 := constantI S_ 1 1#1
  let main_v3 : IVec S_ 1 := (fun x v => Host.reduce IntOp.andi x v reducesTo_S8x4096x32x128_S_d0_1_2_3 h_S_) main_v2 main_c
  let main_v4 : FVec F S8x4096x32x128 .f32 := Host.absf main_arg1
  let main_cst_0 : FVec F S_ .f32 := constant S_ .f32 0x7F800000#32
  let main_v5 : FVec F S8x4096x32x128 .f32 := broadcastInDim S8x4096x32x128 ![] bcast_S_S8x4096x32x128 main_cst_0
  let main_v6 : IVec S8x4096x32x128 1 := cmpf .olt main_v4 main_v5
  let main_c_1 : IVec S_ 1 := constantI S_ 1 1#1
  let main_v7 : IVec S_ 1 := (fun x v => Host.reduce IntOp.andi x v reducesTo_S8x4096x32x128_S_d0_1_2_3 h_S_) main_v6 main_c_1
  let main_v8 : IVec S_ 1 := andi main_v3 main_v7
  let main_v9 : FVec F S8x1x32x128 .f32 := Host.absf main_arg2
  let main_cst_2 : FVec F S_ .f32 := constant S_ .f32 0x7F800000#32
  let main_v10 : FVec F S8x1x32x128 .f32 := broadcastInDim S8x1x32x128 ![] bcast_S_S8x1x32x128 main_cst_2
  let main_v11 : IVec S8x1x32x128 1 := cmpf .olt main_v9 main_v10
  let main_c_3 : IVec S_ 1 := constantI S_ 1 1#1
  let main_v12 : IVec S_ 1 := (fun x v => Host.reduce IntOp.andi x v reducesTo_S8x1x32x128_S_d0_1_2_3 h_S_) main_v11 main_c_3
  let main_v13 : IVec S_ 1 := andi main_v8 main_v12
  let main_v14 : FVec F S8x1x32x128 .f32 := Host.absf main_arg3
  let main_cst_4 : FVec F S_ .f32 := constant S_ .f32 0x7F800000#32
  let main_v15 : FVec F S8x1x32x128 .f32 := broadcastInDim S8x1x32x128 ![] bcast_S_S8x1x32x128 main_cst_4
  let main_v16 : IVec S8x1x32x128 1 := cmpf .olt main_v14 main_v15
  fn_part1 (F := F) main_v13 main_v16
-- ==== Kernel.lean ====
abbrev S8x4096x32x128 : Shape := ⟨4, ![8, 4096, 32, 128]⟩
abbrev S8x1x32x128 : Shape := ⟨4, ![8, 1, 32, 128]⟩
abbrev S8x4097x32x128 : Shape := ⟨4, ![8, 4097, 32, 128]⟩
abbrev S8x32x32x128 : Shape := ⟨4, ![8, 32, 32, 128]⟩

abbrev nBuf : Space → Nat
  | .hbm => 8
  | .vmem => 14
  | .smem => 0
  | _ => 0

abbrev bufTy : (tb : Table) → Fin (tcTables nBuf tb) → BufTy
  | .hbm, ⟨0, _⟩ => ⟨S8x4096x32x128, .f32⟩
  | .hbm, ⟨1, _⟩ => ⟨S8x4096x32x128, .f32⟩
  | .hbm, ⟨2, _⟩ => ⟨S8x1x32x128, .f32⟩
  | .hbm, ⟨3, _⟩ => ⟨S8x1x32x128, .f32⟩
  | .hbm, ⟨4, _⟩ => ⟨S8x4097x32x128, .f32⟩
  | .hbm, ⟨5, _⟩ => ⟨S8x4097x32x128, .f32⟩
  | .hbm, ⟨6, _⟩ => ⟨S8x4097x32x128, .f32⟩
  | .hbm, ⟨7, _⟩ => ⟨S8x4097x32x128, .f32⟩
  | .local _ .vmem, ⟨0, _⟩ => ⟨S8x32x32x128, .f32⟩
  | .local _ .vmem, ⟨1, _⟩ => ⟨S8x32x32x128, .f32⟩
  | .local _ .vmem, ⟨2, _⟩ => ⟨S8x32x32x128, .f32⟩
  | .local _ .vmem, ⟨3, _⟩ => ⟨S8x32x32x128, .f32⟩
  | .local _ .vmem, ⟨4, _⟩ => ⟨S8x32x32x128, .f32⟩
  | .local _ .vmem, ⟨5, _⟩ => ⟨S8x32x32x128, .f32⟩
  | .local _ .vmem, ⟨6, _⟩ => ⟨S8x32x32x128, .f32⟩
  | .local _ .vmem, ⟨7, _⟩ => ⟨S8x32x32x128, .f32⟩
  | .local _ .vmem, ⟨8, _⟩ => ⟨S8x1x32x128, .f32⟩
  | .local _ .vmem, ⟨9, _⟩ => ⟨S8x1x32x128, .f32⟩
  | .local _ .vmem, ⟨10, _⟩ => ⟨S8x1x32x128, .f32⟩
  | .local _ .vmem, ⟨11, _⟩ => ⟨S8x1x32x128, .f32⟩
  | .local _ .vmem, ⟨12, _⟩ => ⟨S8x1x32x128, .f32⟩
  | .local _ .vmem, ⟨13, _⟩ => ⟨S8x1x32x128, .f32⟩
  | _, _ => ⟨S8x4096x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x32x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 4 → Nat :=
  let arg0 : BitVec 32 := BitVec.ofNat 32 (i 0).val
  let c0_i32 : BitVec 32 := 0#32
  let c4096_i32 : BitVec 32 := 4096#32
  let c0_i32_0 : BitVec 32 := 0#32
  let c0_i32_1 : BitVec 32 := 0#32
  let c0_i32_2 : BitVec 32 := 0#32
  ![c0_i32.toNat, c4096_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c4096_i32 : BitVec 32 := 4096#32
  let c0_i32_0 : BitVec 32 := 0#32
  let c0_i32_1 : BitVec 32 := 0#32
  let c0_i32_2 : BitVec 32 := 0#32
  ![c0_i32.toNat, c4096_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 4 → Nat :=
  let arg0 : BitVec 32 := BitVec.ofNat 32 (i 0).val
  let c0_i32 : BitVec 32 := 0#32
  let c4096_i32 : BitVec 32 := 4096#32
  let c0_i32_0 : BitVec 32 := 0#32
  let c0_i32_1 : BitVec 32 := 0#32
  let c0_i32_2 : BitVec 32 := 0#32
  ![c0_i32.toNat, c4096_i32.toNat, c0_i32_0.toNat, c0_i32_1.toNat]

def cc1_transform_5 (i : grid1.Coords) : Fin 4 → Nat :=
  let arg0 : BitVec 32 := BitVec.ofNat 32 (i 0).val
  let c0_i32 : BitVec 32 := 0#32
  let c4096_i32 : BitVec 32 := 4096#32
  let c0_i32_0 : BitVec 32 := 0#32
  let c0_i32_1 : BitVec 32 := 0#32
  let c0_i32_2 : BitVec 32 := 0#32
  ![c0_i32.toNat, c4096_i32.toNat, c0_i32_0.toNat, c0_i32_1.toNat]

abbrev stage1_0 : Fin 1 → Memref sig .tc .vmem S8x1x32x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x1x32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x1x32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x1x32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1x32x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x1x32x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S8x32x32x128_S8x32x32x128_0_0_0_0 : ∀ a, (![0, 0, 0, 0] : Fin 4 → Nat) a + S8x32x32x128.size a ≤ S8x32x32x128.size a
  h_S8x32x32x128 : 0 < S8x32x32x128.numel
  inb_S8x1x32x128_S8x1x32x128_0_0_0_0 : ∀ a, (![0, 0, 0, 0] : Fin 4 → Nat) a + S8x1x32x128.size a ≤ S8x1x32x128.size a
  h_S8x1x32x128 : 0 < S8x1x32x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x32x128.size a ≤ S8x4096x32x128.size a
  hwx0_0 : ∀ i : grid0.Coords, EltTy.bits .f32 = 32 ∨ (Rect.block (s := S8x4096x32x128) S8x32x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x32x128.size a ≤ S8x4096x32x128.size a
  hwx0_1 : ∀ i : grid0.Coords, EltTy.bits .f32 = 32 ∨ (Rect.block (s := S8x4096x32x128) S8x32x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8x32x32x128.size a < S8x4097x32x128.size a
  hwx0_2 : ∀ i : grid0.Coords, EltTy.bits .f32 = 32 ∨ (Rect.unit (s := S8x4097x32x128) (fun a => cc0_transform_2 i a * S8x32x32x128.size a) (fun a => (Pipeline.Clip.of (cc0_transform_2 i a) (S8x32x32x128.size a) (S8x4097x32x128.size a)).extent (S8x32x32x128.size a)) fun a => Pipeline.Clip.inb (Pipeline.Clip.ok_of (hstart0_2 i a))).WholeWords (EltTy.packing .f32)
  hwxs0_2 : ∀ i : grid0.Coords, EltTy.bits .f32 = 32 ∨ (Rect.unit (s := S8x32x32x128) (fun _ => 0) (fun a => (Pipeline.Clip.of (cc0_transform_2 i a) (S8x32x32x128.size a) (S8x4097x32x128.size a)).extent (S8x32x32x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S8x32x32x128.size a < S8x4097x32x128.size a
  hwx0_3 : ∀ i : grid0.Coords, EltTy.bits .f32 = 32 ∨ (Rect.unit (s := S8x4097x32x128) (fun a => cc0_transform_3 i a * S8x32x32x128.size a) (fun a => (Pipeline.Clip.of (cc0_transform_3 i a) (S8x32x32x128.size a) (S8x4097x32x128.size a)).extent (S8x32x32x128.size a)) fun a => Pipeline.Clip.inb (Pipeline.Clip.ok_of (hstart0_3 i a))).WholeWords (EltTy.packing .f32)
  hwxs0_3 : ∀ i : grid0.Coords, EltTy.bits .f32 = 32 ∨ (Rect.unit (s := S8x32x32x128) (fun _ => 0) (fun a => (Pipeline.Clip.of (cc0_transform_3 i a) (S8x32x32x128.size a) (S8x4097x32x128.size a)).extent (S8x32x32x128.size a)) fun a => (Nat.zero_add _).trans_le (Pipeline.Clip.extent_le (Pipeline.Clip.ok_of (hstart0_3 i a)))).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S8x1x32x128.size a ≤ S8x4097x32x128.size a
  hwx1_0 : ∀ i : grid1.Coords, EltTy.bits .f32 = 32 ∨ (Rect.block (s := S8x4097x32x128) S8x1x32x128.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S8x1x32x128.size a ≤ S8x4097x32x128.size a
  hwx1_1 : ∀ i : grid1.Coords, EltTy.bits .f32 = 32 ∨ (Rect.block (s := S8x4097x32x128) S8x1x32x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x1x32x128.size a ≤ S8x1x32x128.size a
  hwx1_2 : ∀ i : grid1.Coords, EltTy.bits .f32 = 32 ∨ (Rect.block (s := S8x1x32x128) S8x1x32x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x1x32x128.size a ≤ S8x1x32x128.size a
  hwx1_3 : ∀ i : grid1.Coords, EltTy.bits .f32 = 32 ∨ (Rect.block (s := S8x1x32x128) S8x1x32x128.size (cc1_transform_3 i) (hinb1_3 i)).WholeWords (EltTy.packing .f32)
  hstage1_4 : ∀ j, (stage1_4 j).IsWhole
  nbuf1_4 : grid1.bufCount reads1_4 false = 1
  hreads1_4 : ∀ i i' : grid1.Coords, (∀ a, reads1_4 a = true → i a = i' a) → cc1_transform_4 i = cc1_transform_4 i'
  hinb1_4 : ∀ (i : grid1.Coords) a, (cc1_transform_4 i a + 1) * S8x1x32x128.size a ≤ S8x4097x32x128.size a
  hwx1_4 : ∀ i : grid1.Coords, EltTy.bits .f32 = 32 ∨ (Rect.block (s := S8x4097x32x128) S8x1x32x128.size (cc1_transform_4 i) (hinb1_4 i)).WholeWords (EltTy.packing .f32)
  hstage1_5 : ∀ j, (stage1_5 j).IsWhole
  nbuf1_5 : grid1.bufCount reads1_5 false = 1
  hreads1_5 : ∀ i i' : grid1.Coords, (∀ a, reads1_5 a = true → i a = i' a) → cc1_transform_5 i = cc1_transform_5 i'
  hinb1_5 : ∀ (i : grid1.Coords) a, (cc1_transform_5 i a + 1) * S8x1x32x128.size a ≤ S8x4097x32x128.size a
  hwx1_5 : ∀ i : grid1.Coords, EltTy.bits .f32 = 32 ∨ (Rect.block (s := S8x4097x32x128) S8x1x32x128.size (cc1_transform_5 i) (hinb1_5 i)).WholeWords (EltTy.packing .f32)

variable [Facts₀]

abbrev win0_0 : Pipeline.Window sig grid0 :=
  Pipeline.Window.ofSpec (Memref.whole main_arg0) S8x32x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x32x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v0_0) S8x32x32x128.size cc0_transform_2 reads0_2 true false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0_1) S8x32x32x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S8x1x32x128.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8x1x32x128.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8x1x32x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S8x1x32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S8x1x32x128.size cc1_transform_4 reads1_4 true false 1 stage1_4 sem1_4
    hrank1 hreads1_4 hinb1_4 nbuf1_4 (Memref.isWhole_whole _) hwx1_4 hstage1_4

abbrev win1_5 : Pipeline.Window sig grid1 :=
  Pipeline.Window.ofSpec (Memref.whole main_v1_1) S8x1x32x128.size cc1_transform_5 reads1_5 true false 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where
  halias1_4 : Pipeline.Aliased win1 0 4
  halias1_5 : Pipeline.Aliased win1 1 5

variable [Facts]
-- ==== ReferenceIdeal.lean ====
abbrev S8x4096x32x128 : Shape := ⟨4, ![8, 4096, 32, 128]⟩
abbrev S8x1x32x128 : Shape := ⟨4, ![8, 1, 32, 128]⟩
abbrev S8x4097x32x128 : Shape := ⟨4, ![8, 4097, 32, 128]⟩

abbrev nBuf : Space → Nat
  | .hbm => 6
  | .vmem => 0
  | .smem => 0
  | _ => 0

abbrev bufTy : (tb : Table) → Fin (tcTables nBuf tb) → BufTy
  | .hbm, ⟨0, _⟩ => ⟨S8x4096x32x128, .f32⟩
  | .hbm, ⟨1, _⟩ => ⟨S8x4096x32x128, .f32⟩
  | .hbm, ⟨2, _⟩ => ⟨S8x1x32x128, .f32⟩
  | .hbm, ⟨3, _⟩ => ⟨S8x1x32x128, .f32⟩
  | .hbm, ⟨4, _⟩ => ⟨S8x4097x32x128, .f32⟩
  | .hbm, ⟨5, _⟩ => ⟨S8x4097x32x128, .f32⟩
  | _, _ => ⟨S8x4096x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  concatenates_S8x4096x32x128_S8x1x32x128_S8x4097x32x128_d1 : Shape.Concatenates [S8x4096x32x128, S8x1x32x128] S8x4097x32x128 1

variable [Facts₀]

class Facts : Prop extends Facts₀ where

variable [Facts]
-- ==== Proof.Appended.lean ====
/-
  The mathematics of the certificate, with no program in sight: a cache of 4096 rows with ONE more row put after
  the last (the row axis is the second of four). `appended a b` is that array, index by index: an index whose row
  is below 4096 reads the cache `a` at the same coordinates, and the one remaining row, row 4096, reads the new row
  `b` at row 0. The host's two-piece `concatenate` along the row axis is this function.
-/
import Idealize.ShloMosaic.Lib.ValueIdx
import Idealize.ShloMosaic.Lib.Pipeline.Value

noncomputable section

namespace Cert.Appended

open Idealize.ShloMosaic Idealize.ShloMosaic.ValueIdx

/-- The cache: 8 sequences of 4096 rows of 32 heads of 128 lanes. -/
abbrev Cache : Shape := ⟨4, ![8, 4096, 32, 128]⟩
/-- The new entry: one row for each sequence. -/
abbrev Row : Shape := ⟨4, ![8, 1, 32, 128]⟩
/-- The cache one row longer. -/
abbrev Grown : Shape := ⟨4, ![8, 4097, 32, 128]⟩

variable {α : Type}

/-- The cache `a` with the row `b` after its last row. -/
def appended (a : Cache.Idx → α) (b : Row.Idx → α) : Grown.Idx → α := fun i =>
  if h : (i 1).val < 4096 then a (ix4 (n0 := 8) (n2 := 32) (n3 := 128) (i 0) (⟨(i 1).val, h⟩ : Fin 4096) (i 2) (i 3))
  else b (ix4 (n0 := 8) (n2 := 32) (n3 := 128) (i 0) (0 : Fin 1) (i 2) (i 3))

/-- Below row 4096 it is the cache. -/
theorem appended_of_lt (a : Cache.Idx → α) (b : Row.Idx → α) (i : Grown.Idx) (h : (i 1).val < 4096) :
    appended a b i = a (ix4 (n0 := 8) (n2 := 32) (n3 := 128) (i 0) (⟨(i 1).val, h⟩ : Fin 4096) (i 2) (i 3)) := by
  unfold appended; rw [dif_pos h]

/-- At row 4096 it is the new row. -/
theorem appended_of_not_lt (a : Cache.Idx → α) (b : Row.Idx → α) (i : Grown.Idx) (h : ¬ (i 1).val < 4096) :
    appended a b i = b (ix4 (n0 := 8) (n2 := 32) (n3 := 128) (i 0) (0 : Fin 1) (i 2) (i 3)) := by
  unfold appended; rw [dif_neg h]

/-- The host's concatenation of the cache and the row along the row axis is `appended`: the joined axis'
    coordinate falls in the first piece exactly when it is below 4096, and otherwise it is 4096, the second piece's
    row 0. -/
theorem concatenate_eq (a : Cache.Idx → α) (b : Row.Idx → α) (h : Shape.Concatenates [Cache, Row] Grown 1) :
    concatenate Grown 1 [⟨Cache, a⟩, ⟨Row, b⟩] h = appended a b := by
  funext j
  by_cases hl : (j 1).val < 4096
  · rw [appended_of_lt a b j hl]
    refine concatenate_pair_apply_left (1 : Fin Grown.rank) a b h j rfl _ fun bx => ?_
    match bx with
    | ⟨0, _⟩ => rfl
    | ⟨1, _⟩ => rfl
    | ⟨2, _⟩ => rfl
    | ⟨3, _⟩ => rfl
  · rw [appended_of_not_lt a b j hl]
    have hj : (j 1).val < 4097 := (j 1).isLt
    refine concatenate_pair_apply_right (1 : Fin Grown.rank) a b h j rfl rfl _ (fun bx hb => ?_) ?_
    · match bx with
      | ⟨0, _⟩ => rfl
      | ⟨1, _⟩ => exact absurd rfl hb
      | ⟨2, _⟩ => rfl
      | ⟨3, _⟩ => rfl
    · show 0 + 4096 = (j 1).val
      omega

end Cert.Appended

end
-- ==== Proof.CopyKey.lean ====
/-
  The first call, on the key cache: 128 grid points; point `t` loads the key cache's block of rows 32·t ‥ 32·t + 31 (whole on
  the other three axes) and stores it into the same rows of the first result, which is one row longer than the cache. The
  result's window is allowed to overhang its array, but none of the 128 blocks does: the last ends at row 4095. Row 4096
  of the result is written by no point.
-/
import proofs.«173953_j45861660787371_1_alg».proof.Proof.Gen.KernelIdeal.Frame
import proofs.«173953_j45861660787371_1_alg».proof.Proof.Appended
import Idealize.ShloMosaic.Lib.Pipeline.Value

set_option maxRecDepth 16384

noncomputable section

namespace Cert.KernelIdeal.CopyKey

open Cert.KernelIdeal Cert.KernelIdeal.Gen Cert.Appended
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0, 0, 0] : Fin 4 → Nat) = fun _ => 0 := funext fun a => by fin_cases a <;> rfl

/-- The printed index maps, decided over the grid: at point `t` the cache's window and the first result's window both
    sit at block `t` of the row axis and block 0 of the others, and the result's block there is not cut: it has the
    full 8 × 32 × 32 × 128 extents. -/
theorem idx_facts : ∀ t : Fin cfg0.N,
    win0_0.index t (0 : Fin 4) = 0 ∧ win0_0.index t (1 : Fin 4) = t.val ∧ win0_0.index t (2 : Fin 4) = 0 ∧ win0_0.index t (3 : Fin 4) = 0
    ∧ win0_2.index t (0 : Fin 4) = 0 ∧ win0_2.index t (1 : Fin 4) = t.val ∧ win0_2.index t (2 : Fin 4) = 0 ∧ win0_2.index t (3 : Fin 4) = 0
    ∧ win0_2.xsize (grid0.coords t) (0 : Fin 4) = 8 ∧ win0_2.xsize (grid0.coords t) (1 : Fin 4) = 32
    ∧ win0_2.xsize (grid0.coords t) (2 : Fin 4) = 32 ∧ win0_2.xsize (grid0.coords t) (3 : Fin 4) = 128
    ∧ t.val < 128 :=
  (by decide +kernel : ∀ t : Fin grid0.N, _)

/-- WHAT POINT `t` WRITES BACK to the first result is block `t` of the cache with any row appended: the block's rows are
    below 4096, where that array is the cache. -/
theorem flushed (c : Dev nD) (b : Row.Idx → Elt F .f32) (t : Fin cfg0.N) :
    (dat0 V c).flushed 2 t = ((cfg0.win 2).blk t).view.read (Elt F) (appended (V c main_arg0) b) := by
  show (cfg0.win 2).cut (grid0.coords t) ((dat0 V c).after 2 t) = _
  rw [after0_2]
  unfold out0_2
  rw [View.canon_unit_zero hz]
  simp only [View.ld_unit_zero (S := S8x32x32x128) hz]
  obtain ⟨e0, e1, e2, e3, f0, f1, f2, f3, x0, x1, x2, x3, ht⟩ := idx_facts t
  funext j
  show V c main_arg0 (((cfg0.win 0).blk t).view.emb ((cfg0.win 2).xinj (grid0.coords t) j))
    = appended (V c main_arg0) b (((cfg0.win 2).blk t).view.emb j)
  have hj0 : (j 0).val < win0_2.xsize (grid0.coords t) (0 : Fin 4) := (j 0).isLt
  have hj1 : (j 1).val < win0_2.xsize (grid0.coords t) (1 : Fin 4) := (j 1).isLt
  have hj2 : (j 2).val < win0_2.xsize (grid0.coords t) (2 : Fin 4) := (j 2).isLt
  have hj3 : (j 3).val < win0_2.xsize (grid0.coords t) (3 : Fin 4) := (j 3).isLt
  have hrow : ((((cfg0.win 2).blk t).view.emb j) 1).val < 4096 := by
    show win0_2.index t (1 : Fin 4) * 32 + 1 * (j 1).val < 4096
    omega
  rw [appended_of_lt _ _ _ hrow]
  have hidx : ((cfg0.win 0).blk t).view.emb ((cfg0.win 2).xinj (grid0.coords t) j)
      = ix4 (n0 := 8) (n2 := 32) (n3 := 128) ((((cfg0.win 2).blk t).view.emb j) 0)
          (⟨((((cfg0.win 2).blk t).view.emb j) 1).val, hrow⟩ : Fin 4096)
          ((((cfg0.win 2).blk t).view.emb j) 2) ((((cfg0.win 2).blk t).view.emb j) 3) := by
    funext ax; apply Fin.ext
    match ax with
    | ⟨0, _⟩ => show win0_0.index t (0 : Fin 4) * 8 + 1 * (j 0).val = win0_2.index t (0 : Fin 4) * 8 + 1 * (j 0).val; omega
    | ⟨1, _⟩ => show win0_0.index t (1 : Fin 4) * 32 + 1 * (j 1).val = win0_2.index t (1 : Fin 4) * 32 + 1 * (j 1).val; omega
    | ⟨2, _⟩ => show win0_0.index t (2 : Fin 4) * 32 + 1 * (j 2).val = win0_2.index t (2 : Fin 4) * 32 + 1 * (j 2).val; omega
    | ⟨3, _⟩ => show win0_0.index t (3 : Fin 4) * 128 + 1 * (j 3).val = win0_2.index t (3 : Fin 4) * 128 + 1 * (j 3).val; omega
  rw [hidx]

/-- An index of the first result lies in point `t`'s block exactly when its row is among the block's 32 rows (the
    block is whole on the other three axes). -/
theorem mem_blk (t : Fin cfg0.N) (i : Grown.Idx) :
    i ∈ ((cfg0.win 2).blk t).view.set ↔ t.val * 32 ≤ (i 1).val ∧ (i 1).val < t.val * 32 + 32 := by
  show i ∈ ((View.whole main_v0_0).slice (win0_2.rect t)).set ↔ _
  rw [View.set_slice_whole, Rect.mem_set_unit]
  obtain ⟨-, -, -, -, f0, f1, f2, f3, x0, x1, x2, x3, ht⟩ := idx_facts t
  have h0 : (i 0).val < 8 := (i 0).isLt
  have h2 : (i 2).val < 32 := (i 2).isLt
  have h3 : (i 3).val < 128 := (i 3).isLt
  constructor
  · intro h
    have b1 : win0_2.index t (1 : Fin 4) * 32 ≤ (i 1).val
        ∧ (i 1).val < win0_2.index t (1 : Fin 4) * 32 + win0_2.xsize (grid0.coords t) (1 : Fin 4) := h 1
    omega
  · intro h ax
    match ax with
    | ⟨0, _⟩ =>
      show win0_2.index t (0 : Fin 4) * 8 ≤ (i 0).val ∧ (i 0).val < win0_2.index t (0 : Fin 4) * 8 + win0_2.xsize (grid0.coords t) (0 : Fin 4)
      omega
    | ⟨1, _⟩ =>
      show win0_2.index t (1 : Fin 4) * 32 ≤ (i 1).val ∧ (i 1).val < win0_2.index t (1 : Fin 4) * 32 + win0_2.xsize (grid0.coords t) (1 : Fin 4)
      omega
    | ⟨2, _⟩ =>
      show win0_2.index t (2 : Fin 4) * 32 ≤ (i 2).val ∧ (i 2).val < win0_2.index t (2 : Fin 4) * 32 + win0_2.xsize (grid0.coords t) (2 : Fin 4)
      omega
    | ⟨3, _⟩ =>
      show win0_2.index t (3 : Fin 4) * 128 ≤ (i 3).val ∧ (i 3).val < win0_2.index t (3 : Fin 4) * 128 + win0_2.xsize (grid0.coords t) (3 : Fin 4)
      omega

/-- THE FIRST RESULT after the call, on its rows below 4096: the cache. Row `r` is in the block of point `r / 32`, and
    every point writes back its block of the cache. -/
theorem final (c : Dev nD) (b : Row.Idx → Elt F .f32) (i : Grown.Idx) (hl : (i 1).val < 4096) :
    (dat0 V c).arrAt 2 cfg0.N i = appended (V c main_arg0) b i := by
  have hN : (i 1).val / 32 < cfg0.N := by
    show (i 1).val / 32 < grid0.N
    rw [N_0]; omega
  refine (dat0 V c).arrAt_apply_of_mem 2 (appended (V c main_arg0) b) (fun t _ => flushed V c b t) cfg0.N
    ⟨(i 1).val / 32, hN⟩ i hN (flush0_2 _) ((mem_blk _ i).mpr ?_)
  show (i 1).val / 32 * 32 ≤ (i 1).val ∧ (i 1).val < (i 1).val / 32 * 32 + 32
  omega

end Cert.KernelIdeal.CopyKey

end
-- ==== Proof.CopyValue.lean ====
/-
  The first call, on the value cache: 128 grid points; point `t` loads the value cache's block of rows 32·t ‥ 32·t + 31 (whole on
  the other three axes) and stores it into the same rows of the second result, which is one row longer than the cache. The
  result's window is allowed to overhang its array, but none of the 128 blocks does: the last ends at row 4095. Row 4096
  of the result is written by no point.
-/
import proofs.«173953_j45861660787371_1_alg».proof.Proof.Gen.KernelIdeal.Frame
import proofs.«173953_j45861660787371_1_alg».proof.Proof.Appended
import Idealize.ShloMosaic.Lib.Pipeline.Value

set_option maxRecDepth 16384

noncomputable section

namespace Cert.KernelIdeal.CopyValue

open Cert.KernelIdeal Cert.KernelIdeal.Gen Cert.Appended
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0, 0, 0] : Fin 4 → Nat) = fun _ => 0 := funext fun a => by fin_cases a <;> rfl

/-- The printed index maps, decided over the grid: at point `t` the cache's window and the second result's window both
    sit at block `t` of the row axis and block 0 of the others, and the result's block there is not cut: it has the
    full 8 × 32 × 32 × 128 extents. -/
theorem idx_facts : ∀ t : Fin cfg0.N,
    win0_1.index t (0 : Fin 4) = 0 ∧ win0_1.index t (1 : Fin 4) = t.val ∧ win0_1.index t (2 : Fin 4) = 0 ∧ win0_1.index t (3 : Fin 4) = 0
    ∧ win0_3.index t (0 : Fin 4) = 0 ∧ win0_3.index t (1 : Fin 4) = t.val ∧ win0_3.index t (2 : Fin 4) = 0 ∧ win0_3.index t (3 : Fin 4) = 0
    ∧ win0_3.xsize (grid0.coords t) (0 : Fin 4) = 8 ∧ win0_3.xsize (grid0.coords t) (1 : Fin 4) = 32
    ∧ win0_3.xsize (grid0.coords t) (2 : Fin 4) = 32 ∧ win0_3.xsize (grid0.coords t) (3 : Fin 4) = 128
    ∧ t.val < 128 :=
  (by decide +kernel : ∀ t : Fin grid0.N, _)

/-- WHAT POINT `t` WRITES BACK to the second result is block `t` of the cache with any row appended: the block's rows are
    below 4096, where that array is the cache. -/
theorem flushed (c : Dev nD) (b : Row.Idx → Elt F .f32) (t : Fin cfg0.N) :
    (dat0 V c).flushed 3 t = ((cfg0.win 3).blk t).view.read (Elt F) (appended (V c main_arg1) b) := by
  show (cfg0.win 3).cut (grid0.coords t) ((dat0 V c).after 3 t) = _
  rw [after0_3]
  unfold out0_3
  rw [View.canon_unit_zero hz]
  simp only [View.ld_unit_zero (S := S8x32x32x128) hz]
  obtain ⟨e0, e1, e2, e3, f0, f1, f2, f3, x0, x1, x2, x3, ht⟩ := idx_facts t
  funext j
  show V c main_arg1 (((cfg0.win 1).blk t).view.emb ((cfg0.win 3).xinj (grid0.coords t) j))
    = appended (V c main_arg1) b (((cfg0.win 3).blk t).view.emb j)
  have hj0 : (j 0).val < win0_3.xsize (grid0.coords t) (0 : Fin 4) := (j 0).isLt
  have hj1 : (j 1).val < win0_3.xsize (grid0.coords t) (1 : Fin 4) := (j 1).isLt
  have hj2 : (j 2).val < win0_3.xsize (grid0.coords t) (2 : Fin 4) := (j 2).isLt
  have hj3 : (j 3).val < win0_3.xsize (grid0.coords t) (3 : Fin 4) := (j 3).isLt
  have hrow : ((((cfg0.win 3).blk t).view.emb j) 1).val < 4096 := by
    show win0_3.index t (1 : Fin 4) * 32 + 1 * (j 1).val < 4096
    omega
  rw [appended_of_lt _ _ _ hrow]
  have hidx : ((cfg0.win 1).blk t).view.emb ((cfg0.win 3).xinj (grid0.coords t) j)
      = ix4 (n0 := 8) (n2 := 32) (n3 := 128) ((((cfg0.win 3).blk t).view.emb j) 0)
          (⟨((((cfg0.win 3).blk t).view.emb j) 1).val, hrow⟩ : Fin 4096)
          ((((cfg0.win 3).blk t).view.emb j) 2) ((((cfg0.win 3).blk t).view.emb j) 3) := by
    funext ax; apply Fin.ext
    match ax with
    | ⟨0, _⟩ => show win0_1.index t (0 : Fin 4) * 8 + 1 * (j 0).val = win0_3.index t (0 : Fin 4) * 8 + 1 * (j 0).val; omega
    | ⟨1, _⟩ => show win0_1.index t (1 : Fin 4) * 32 + 1 * (j 1).val = win0_3.index t (1 : Fin 4) * 32 + 1 * (j 1).val; omega
    | ⟨2, _⟩ => show win0_1.index t (2 : Fin 4) * 32 + 1 * (j 2).val = win0_3.index t (2 : Fin 4) * 32 + 1 * (j 2).val; omega
    | ⟨3, _⟩ => show win0_1.index t (3 : Fin 4) * 128 + 1 * (j 3).val = win0_3.index t (3 : Fin 4) * 128 + 1 * (j 3).val; omega
  rw [hidx]

/-- An index of the second result lies in point `t`'s block exactly when its row is among the block's 32 rows (the
    block is whole on the other three axes). -/
theorem mem_blk (t : Fin cfg0.N) (i : Grown.Idx) :
    i ∈ ((cfg0.win 3).blk t).view.set ↔ t.val * 32 ≤ (i 1).val ∧ (i 1).val < t.val * 32 + 32 := by
  show i ∈ ((View.whole main_v0_1).slice (win0_3.rect t)).set ↔ _
  rw [View.set_slice_whole, Rect.mem_set_unit]
  obtain ⟨-, -, -, -, f0, f1, f2, f3, x0, x1, x2, x3, ht⟩ := idx_facts t
  have h0 : (i 0).val < 8 := (i 0).isLt
  have h2 : (i 2).val < 32 := (i 2).isLt
  have h3 : (i 3).val < 128 := (i 3).isLt
  constructor
  · intro h
    have b1 : win0_3.index t (1 : Fin 4) * 32 ≤ (i 1).val
        ∧ (i 1).val < win0_3.index t (1 : Fin 4) * 32 + win0_3.xsize (grid0.coords t) (1 : Fin 4) := h 1
    omega
  · intro h ax
    match ax with
    | ⟨0, _⟩ =>
      show win0_3.index t (0 : Fin 4) * 8 ≤ (i 0).val ∧ (i 0).val < win0_3.index t (0 : Fin 4) * 8 + win0_3.xsize (grid0.coords t) (0 : Fin 4)
      omega
    | ⟨1, _⟩ =>
      show win0_3.index t (1 : Fin 4) * 32 ≤ (i 1).val ∧ (i 1).val < win0_3.index t (1 : Fin 4) * 32 + win0_3.xsize (grid0.coords t) (1 : Fin 4)
      omega
    | ⟨2, _⟩ =>
      show win0_3.index t (2 : Fin 4) * 32 ≤ (i 2).val ∧ (i 2).val < win0_3.index t (2 : Fin 4) * 32 + win0_3.xsize (grid0.coords t) (2 : Fin 4)
      omega
    | ⟨3, _⟩ =>
      show win0_3.index t (3 : Fin 4) * 128 ≤ (i 3).val ∧ (i 3).val < win0_3.index t (3 : Fin 4) * 128 + win0_3.xsize (grid0.coords t) (3 : Fin 4)
      omega

/-- THE FIRST RESULT after the call, on its rows below 4096: the cache. Row `r` is in the block of point `r / 32`, and
    every point writes back its block of the cache. -/
theorem final (c : Dev nD) (b : Row.Idx → Elt F .f32) (i : Grown.Idx) (hl : (i 1).val < 4096) :
    (dat0 V c).arrAt 3 cfg0.N i = appended (V c main_arg1) b i := by
  have hN : (i 1).val / 32 < cfg0.N := by
    show (i 1).val / 32 < grid0.N
    rw [N_0]; omega
  refine (dat0 V c).arrAt_apply_of_mem 3 (appended (V c main_arg1) b) (fun t _ => flushed V c b t) cfg0.N
    ⟨(i 1).val / 32, hN⟩ i hN (flush0_3 _) ((mem_blk _ i).mpr ?_)
  show (i 1).val / 32 * 32 ≤ (i 1).val ∧ (i 1).val < (i 1).val / 32 * 32 + 32
  omega

end Cert.KernelIdeal.CopyValue

end
-- ==== Proof.TailKey.lean ====
/-
  The second call, on the key cache: its one grid point stores the new key row's block — the whole of the 8 × 1 × 32 × 128
  argument — into the block at row 4096 of the first result, an array that enters the call holding a copy of what the
  first call left there.
-/
import proofs.«173953_j45861660787371_1_alg».proof.Proof.Gen.KernelIdeal.Frame
import proofs.«173953_j45861660787371_1_alg».proof.Proof.Appended
import Idealize.ShloMosaic.Lib.Pipeline.Value

set_option maxRecDepth 16384

noncomputable section

namespace Cert.KernelIdeal.TailKey

open Cert.KernelIdeal Cert.KernelIdeal.Gen Cert.Appended
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0, 0, 0] : Fin 4 → Nat) = fun _ => 0 := funext fun a => by fin_cases a <;> rfl

/-- The printed index maps at the call's one point: the new row's window sits at block 0 on every axis, the result's
    window at block 4096 of the row axis (blocks of one row) and block 0 of the others. -/
theorem idx_facts : ∀ t : Fin cfg1.N,
    win1_2.index t (0 : Fin 4) = 0 ∧ win1_2.index t (1 : Fin 4) = 0 ∧ win1_2.index t (2 : Fin 4) = 0 ∧ win1_2.index t (3 : Fin 4) = 0
    ∧ win1_4.index t (0 : Fin 4) = 0 ∧ win1_4.index t (1 : Fin 4) = 4096 ∧ win1_4.index t (2 : Fin 4) = 0 ∧ win1_4.index t (3 : Fin 4) = 0 :=
  (by decide +kernel : ∀ t : Fin grid1.N, _)

/-- WHAT THE POINT WRITES BACK to the first result is its block — row 4096 — of any cache with the new key row appended:
    the body stores the new row's block whole, and at row 4096 the appended array is that row. -/
theorem flushed (c : Dev nD) (a : Cache.Idx → Elt F .f32) (t : Fin cfg1.N) :
    (dat1 V c).flushed 4 t = ((cfg1.win 4).blk t).view.read (Elt F) (appended a (V c main_arg2)) := by
  show (cfg1.win 4).cut (grid1.coords t) ((dat1 V c).after 4 t) = _
  rw [after1_4]
  unfold out1_4
  rw [View.canon_unit_zero hz]
  simp only [View.ld_unit_zero (S := S8x1x32x128) hz]
  obtain ⟨e0, e1, e2, e3, f0, f1, f2, f3⟩ := idx_facts t
  funext j
  show V c main_arg2 (((cfg1.win 2).blk t).view.emb j) = appended a (V c main_arg2) (((cfg1.win 4).blk t).view.emb j)
  have hj1 : (j 1).val < 1 := (j 1).isLt
  have hrow : ¬ ((((cfg1.win 4).blk t).view.emb j) 1).val < 4096 := by
    show ¬ (win1_4.index t (1 : Fin 4) * 1 + 1 * (j 1).val < 4096)
    omega
  rw [appended_of_not_lt _ _ _ hrow]
  have hidx : ((cfg1.win 2).blk t).view.emb j
      = ix4 (n0 := 8) (n2 := 32) (n3 := 128) ((((cfg1.win 4).blk t).view.emb j) 0) (0 : Fin 1)
          ((((cfg1.win 4).blk t).view.emb j) 2) ((((cfg1.win 4).blk t).view.emb j) 3) := by
    funext ax; apply Fin.ext
    match ax with
    | ⟨0, _⟩ => show win1_2.index t (0 : Fin 4) * 8 + 1 * (j 0).val = win1_4.index t (0 : Fin 4) * 8 + 1 * (j 0).val; omega
    | ⟨1, _⟩ => show win1_2.index t (1 : Fin 4) * 1 + 1 * (j 1).val = 0; omega
    | ⟨2, _⟩ => show win1_2.index t (2 : Fin 4) * 32 + 1 * (j 2).val = win1_4.index t (2 : Fin 4) * 32 + 1 * (j 2).val; omega
    | ⟨3, _⟩ => show win1_2.index t (3 : Fin 4) * 128 + 1 * (j 3).val = win1_4.index t (3 : Fin 4) * 128 + 1 * (j 3).val; omega
  rw [hidx]

/-- An index of the result array lies in the point's block exactly when its row is 4096: the block is one row thick and
    whole on the other three axes. -/
theorem mem_blk (t : Fin cfg1.N) (i : Grown.Idx) :
    i ∈ ((cfg1.win 4).blk t).view.set ↔ (i 1).val = 4096 := by
  show i ∈ ((View.whole main_v1_0).slice (win1_4.rect t)).set ↔ _
  rw [View.set_slice_whole, Rect.mem_set_unit]
  obtain ⟨-, -, -, -, f0, f1, f2, f3⟩ := idx_facts t
  have h0 : (i 0).val < 8 := (i 0).isLt
  have h1 : (i 1).val < 4097 := (i 1).isLt
  have h2 : (i 2).val < 32 := (i 2).isLt
  have h3 : (i 3).val < 128 := (i 3).isLt
  constructor
  · intro h
    have b1 : win1_4.index t (1 : Fin 4) * 1 ≤ (i 1).val ∧ (i 1).val < win1_4.index t (1 : Fin 4) * 1 + 1 := h 1
    omega
  · intro h ax
    match ax with
    | ⟨0, _⟩ => show win1_4.index t (0 : Fin 4) * 8 ≤ (i 0).val ∧ (i 0).val < win1_4.index t (0 : Fin 4) * 8 + 8; omega
    | ⟨1, _⟩ => show win1_4.index t (1 : Fin 4) * 1 ≤ (i 1).val ∧ (i 1).val < win1_4.index t (1 : Fin 4) * 1 + 1; omega
    | ⟨2, _⟩ => show win1_4.index t (2 : Fin 4) * 32 ≤ (i 2).val ∧ (i 2).val < win1_4.index t (2 : Fin 4) * 32 + 32; omega
    | ⟨3, _⟩ => show win1_4.index t (3 : Fin 4) * 128 ≤ (i 3).val ∧ (i 3).val < win1_4.index t (3 : Fin 4) * 128 + 128; omega

/-- THE FIRST RESULT after the call: if the array entered the call holding the cache `a` on its rows below 4096,
    it leaves holding the cache with the new row appended — row 4096 is the one block the call writes, and it writes the
    new row there; every other row keeps what it held. -/
theorem final (c : Dev nD) (a : Cache.Idx → Elt F .f32)
    (hentry : ∀ i : Grown.Idx, (i 1).val < 4096 → V c main_v1_0 i = appended a (V c main_arg2) i) :
    (dat1 V c).arrAt 4 cfg1.N = appended a (V c main_arg2) := by
  funext i
  rw [(dat1 V c).arrAt_eq_piecewise 4 (appended a (V c main_arg2)) (fun t _ => flushed V c a t) i, A_eq1]
  split
  · rfl
  · next h =>
    refine hentry i ?_
    by_contra hl
    have h1 : (i 1).val < 4097 := (i 1).isLt
    exact h ⟨t1_0, flush1_4 _, (mem_blk t1_0 i).mpr (by omega)⟩

end Cert.KernelIdeal.TailKey

end
-- ==== Proof.TailValue.lean ====
/-
  The second call, on the value cache: its one grid point stores the new value row's block — the whole of the 8 × 1 × 32 × 128
  argument — into the block at row 4096 of the second result, an array that enters the call holding a copy of what the
  first call left there.
-/
import proofs.«173953_j45861660787371_1_alg».proof.Proof.Gen.KernelIdeal.Frame
import proofs.«173953_j45861660787371_1_alg».proof.Proof.Appended
import Idealize.ShloMosaic.Lib.Pipeline.Value

set_option maxRecDepth 16384

noncomputable section

namespace Cert.KernelIdeal.TailValue

open Cert.KernelIdeal Cert.KernelIdeal.Gen Cert.Appended
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0, 0, 0] : Fin 4 → Nat) = fun _ => 0 := funext fun a => by fin_cases a <;> rfl

/-- The printed index maps at the call's one point: the new row's window sits at block 0 on every axis, the result's
    window at block 4096 of the row axis (blocks of one row) and block 0 of the others. -/
theorem idx_facts : ∀ t : Fin cfg1.N,
    win1_3.index t (0 : Fin 4) = 0 ∧ win1_3.index t (1 : Fin 4) = 0 ∧ win1_3.index t (2 : Fin 4) = 0 ∧ win1_3.index t (3 : Fin 4) = 0
    ∧ win1_5.index t (0 : Fin 4) = 0 ∧ win1_5.index t (1 : Fin 4) = 4096 ∧ win1_5.index t (2 : Fin 4) = 0 ∧ win1_5.index t (3 : Fin 4) = 0 :=
  (by decide +kernel : ∀ t : Fin grid1.N, _)

/-- WHAT THE POINT WRITES BACK to the second result is its block — row 4096 — of any cache with the new value row appended:
    the body stores the new row's block whole, and at row 4096 the appended array is that row. -/
theorem flushed (c : Dev nD) (a : Cache.Idx → Elt F .f32) (t : Fin cfg1.N) :
    (dat1 V c).flushed 5 t = ((cfg1.win 5).blk t).view.read (Elt F) (appended a (V c main_arg3)) := by
  show (cfg1.win 5).cut (grid1.coords t) ((dat1 V c).after 5 t) = _
  rw [after1_5]
  unfold out1_5
  rw [View.canon_unit_zero hz]
  simp only [View.ld_unit_zero (S := S8x1x32x128) hz]
  obtain ⟨e0, e1, e2, e3, f0, f1, f2, f3⟩ := idx_facts t
  funext j
  show V c main_arg3 (((cfg1.win 3).blk t).view.emb j) = appended a (V c main_arg3) (((cfg1.win 5).blk t).view.emb j)
  have hj1 : (j 1).val < 1 := (j 1).isLt
  have hrow : ¬ ((((cfg1.win 5).blk t).view.emb j) 1).val < 4096 := by
    show ¬ (win1_5.index t (1 : Fin 4) * 1 + 1 * (j 1).val < 4096)
    omega
  rw [appended_of_not_lt _ _ _ hrow]
  have hidx : ((cfg1.win 3).blk t).view.emb j
      = ix4 (n0 := 8) (n2 := 32) (n3 := 128) ((((cfg1.win 5).blk t).view.emb j) 0) (0 : Fin 1)
          ((((cfg1.win 5).blk t).view.emb j) 2) ((((cfg1.win 5).blk t).view.emb j) 3) := by
    funext ax; apply Fin.ext
    match ax with
    | ⟨0, _⟩ => show win1_3.index t (0 : Fin 4) * 8 + 1 * (j 0).val = win1_5.index t (0 : Fin 4) * 8 + 1 * (j 0).val; omega
    | ⟨1, _⟩ => show win1_3.index t (1 : Fin 4) * 1 + 1 * (j 1).val = 0; omega
    | ⟨2, _⟩ => show win1_3.index t (2 : Fin 4) * 32 + 1 * (j 2).val = win1_5.index t (2 : Fin 4) * 32 + 1 * (j 2).val; omega
    | ⟨3, _⟩ => show win1_3.index t (3 : Fin 4) * 128 + 1 * (j 3).val = win1_5.index t (3 : Fin 4) * 128 + 1 * (j 3).val; omega
  rw [hidx]

/-- An index of the result array lies in the point's block exactly when its row is 4096: the block is one row thick and
    whole on the other three axes. -/
theorem mem_blk (t : Fin cfg1.N) (i : Grown.Idx) :
    i ∈ ((cfg1.win 5).blk t).view.set ↔ (i 1).val = 4096 := by
  show i ∈ ((View.whole main_v1_1).slice (win1_5.rect t)).set ↔ _
  rw [View.set_slice_whole, Rect.mem_set_unit]
  obtain ⟨-, -, -, -, f0, f1, f2, f3⟩ := idx_facts t
  have h0 : (i 0).val < 8 := (i 0).isLt
  have h1 : (i 1).val < 4097 := (i 1).isLt
  have h2 : (i 2).val < 32 := (i 2).isLt
  have h3 : (i 3).val < 128 := (i 3).isLt
  constructor
  · intro h
    have b1 : win1_5.index t (1 : Fin 4) * 1 ≤ (i 1).val ∧ (i 1).val < win1_5.index t (1 : Fin 4) * 1 + 1 := h 1
    omega
  · intro h ax
    match ax with
    | ⟨0, _⟩ => show win1_5.index t (0 : Fin 4) * 8 ≤ (i 0).val ∧ (i 0).val < win1_5.index t (0 : Fin 4) * 8 + 8; omega
    | ⟨1, _⟩ => show win1_5.index t (1 : Fin 4) * 1 ≤ (i 1).val ∧ (i 1).val < win1_5.index t (1 : Fin 4) * 1 + 1; omega
    | ⟨2, _⟩ => show win1_5.index t (2 : Fin 4) * 32 ≤ (i 2).val ∧ (i 2).val < win1_5.index t (2 : Fin 4) * 32 + 32; omega
    | ⟨3, _⟩ => show win1_5.index t (3 : Fin 4) * 128 ≤ (i 3).val ∧ (i 3).val < win1_5.index t (3 : Fin 4) * 128 + 128; omega

/-- THE FIRST RESULT after the call: if the array entered the call holding the cache `a` on its rows below 4096,
    it leaves holding the cache with the new row appended — row 4096 is the one block the call writes, and it writes the
    new row there; every other row keeps what it held. -/
theorem final (c : Dev nD) (a : Cache.Idx → Elt F .f32)
    (hentry : ∀ i : Grown.Idx, (i 1).val < 4096 → V c main_v1_1 i = appended a (V c main_arg3) i) :
    (dat1 V c).arrAt 5 cfg1.N = appended a (V c main_arg3) := by
  funext i
  rw [(dat1 V c).arrAt_eq_piecewise 5 (appended a (V c main_arg3)) (fun t _ => flushed V c a t) i, A_eq1]
  split
  · rfl
  · next h =>
    refine hentry i ?_
    by_contra hl
    have h1 : (i 1).val < 4097 := (i 1).isLt
    exact h ⟨t1_0, flush1_5 _, (mem_blk t1_0 i).mpr (by omega)⟩

end Cert.KernelIdeal.TailValue

end
-- ==== Proof.KernelValue.lean ====
/-
  The two results of the whole program. The fold of @main's segments at a result buffer: the second call's write-back
  (the new row, at row 4096) over the host's copy of what the first call left (the cache, on rows 0 ‥ 4095); row 4096 of
  the first call's result, which no point of it writes, is the one row the second call overwrites. So each result is
  its cache with its new row appended.
-/
import proofs.«173953_j45861660787371_1_alg».proof.Proof.KernelIdealRun
import proofs.«173953_j45861660787371_1_alg».proof.Proof.CopyKey
import proofs.«173953_j45861660787371_1_alg».proof.Proof.CopyValue
import proofs.«173953_j45861660787371_1_alg».proof.Proof.TailKey
import proofs.«173953_j45861660787371_1_alg».proof.Proof.TailValue
import Idealize.ShloMosaic.Lib.StableHlo.Run

set_option maxRecDepth 16384

noncomputable section

namespace Cert.KernelIdeal.Result

open Cert.KernelIdeal Cert.KernelIdeal.Gen Cert.Appended
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! ## What the second call finds -/

/-- The new key row as the second call finds it is the launched argument: nothing before the call writes it. -/
theorem entry_key_row (c : Dev nD) : V2 m ρ c main_arg2 = m ((c : Thread nD τ).loc main_arg2) :=
  ((W3_arr m ρ c 2).trans (((dat1 (V2 m ρ) c).arrAt_in 2 rfl _).trans (A_eq1 (V2 m ρ) c 2))).symm.trans (W3_main_arg2 m ρ c)

/-- The new value row likewise. -/
theorem entry_value_row (c : Dev nD) : V2 m ρ c main_arg3 = m ((c : Thread nD τ).loc main_arg3) :=
  ((W3_arr m ρ c 3).trans (((dat1 (V2 m ρ) c).arrAt_in 3 rfl _).trans (A_eq1 (V2 m ρ) c 3))).symm.trans (W3_main_arg3 m ρ c)

/-- The first result's buffer as the second call finds it: the host's copy of what the first call left in its own first
    result. -/
theorem entry_first (c : Dev nD) : V2 m ρ c main_v1_0 = (dat0 (V0 m ρ) c).arrAt 2 cfg0.N := by
  show StableHlo.after hostOps1 (W1 m ρ c) (Proc.devRef .tc main_v1_0) = _
  after_results
  exact W1_arr m ρ c 2

/-- The second result's buffer likewise. -/
theorem entry_second (c : Dev nD) : V2 m ρ c main_v1_1 = (dat0 (V0 m ρ) c).arrAt 3 cfg0.N := by
  show StableHlo.after hostOps1 (W1 m ρ c) (Proc.devRef .tc main_v1_1) = _
  after_results
  exact W1_arr m ρ c 3

/-! ## The results -/

/-- THE FIRST RESULT is the key cache with the new key row appended. -/
theorem first (c : Dev nD) : W3 m ρ c (Proc.devRef .tc main_v1_0)
    = appended (m ((c : Thread nD τ).loc main_arg0)) (m ((c : Thread nD τ).loc main_arg2)) := by
  refine (W3_arr m ρ c 4).trans ?_
  have h := TailKey.final (V2 m ρ) c (m ((c : Thread nD τ).loc main_arg0)) fun i hl => by
    rw [entry_key_row, entry_first]
    exact CopyKey.final (V0 m ρ) c _ i hl
  rw [entry_key_row] at h
  exact h

/-- THE SECOND RESULT is the value cache with the new value row appended. -/
theorem second (c : Dev nD) : W3 m ρ c (Proc.devRef .tc main_v1_1)
    = appended (m ((c : Thread nD τ).loc main_arg1)) (m ((c : Thread nD τ).loc main_arg3)) := by
  refine (W3_arr m ρ c 5).trans ?_
  have h := TailValue.final (V2 m ρ) c (m ((c : Thread nD τ).loc main_arg1)) fun i hl => by
    rw [entry_value_row, entry_second]
    exact CopyValue.final (V0 m ρ) c _ i hl
  rw [entry_value_row] at h
  exact h

/-- THE RUN, READ: every weakly fair execution of the program terminates, nothing faulting, with each result the
    cache with its new row appended and the arguments as launched. -/
theorem run : θ_run defs (onTc (τ := τ) (main (F := F))) ⟨m, fun _ => 0, ρ⟩ (fun r => ∀ c : Dev nD,
      r.2.mem ((c.tc : Thread nD τ).loc main_v1_0) = appended (m ((c : Thread nD τ).loc main_arg0)) (m ((c : Thread nD τ).loc main_arg2))
      ∧ r.2.mem ((c.tc : Thread nD τ).loc main_v1_1) = appended (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (first m ρ c), (h c).2.1.trans (second m ρ c), (h c).2.2⟩)
    (Cert.KernelIdeal.Named.run m ρ)

end Cert.KernelIdeal.Result

end
-- ==== Proof.lean ====
/-
  The certificate of a key/value cache update: the kernel appends one new row to each of two caches of 4096 rows — a
  first call copies the cache, 32 rows at a point over 128 points, into an array one row longer, and a second call,
  given that array aliased as its input and output, stores the new row at row 4096 — and the reference concatenates
  cache and row along the row axis. No arithmetic is done on either side: at every index both results are one element of
  one argument, the cache's for a row below 4096 and the new row's at row 4096 (`Cert.Appended.appended`). The kernel's
  two results are read off the run of @main's segments (Proof/KernelValue.lean); the reference's two results are its
  generated run's terms, two-piece concatenations, which are that same function (`Cert.Appended.concatenate_eq`).
  The claim needs no finiteness: nothing is computed, so the precondition is never opened. The idealization rewrote
  nothing, so `preserves` is `True`.
-/
import proofs.«173953_j45861660787371_1_alg».proof.Defs
import proofs.«173953_j45861660787371_1_alg».proof.Proof.Gen.Kernel
import proofs.«173953_j45861660787371_1_alg».proof.Proof.Gen.Kernel.Frame
import proofs.«173953_j45861660787371_1_alg».proof.Proof.Gen.KernelIdeal
import proofs.«173953_j45861660787371_1_alg».proof.Proof.Gen.KernelIdeal.Frame
import proofs.«173953_j45861660787371_1_alg».proof.Proof.Gen.ReferenceIdeal
import proofs.«173953_j45861660787371_1_alg».proof.Proof.Gen.ReferenceIdeal.Run
import proofs.«173953_j45861660787371_1_alg».proof.Proof.Gen.Pre_finite_inputs
import proofs.«173953_j45861660787371_1_alg».proof.Proof.Appended
import proofs.«173953_j45861660787371_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the four arguments both programs end with each result the cache with its new row
    appended: the kernel by its two calls, the reference by its two concatenations. -/
theorem algebraic : Cert.algebraic_KernelIdeal_ReferenceIdeal := by
  intro m ρ m' ρ' _ hagree
  refine ⟨_, _, Cert.KernelIdeal.Result.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.2.1]
    exact Cert.Appended.concatenate_eq _ _ _
  · rw [(hagree c).2.1, (hagree c).2.2.2]
    exact Cert.Appended.concatenate_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
